-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg1 : IVec S1600000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_c_6 : IVec S_ 32 := constantI S_ 32 4294867296#32
  let main_v19 : IVec S1600000 32 := broadcastInDim S1600000 ![] bcast_S_S1600000 main_c_6
  let main_v20 : IVec S1600000 1 := cmpi .sge main_arg1 main_v19
  let main_c_7 : IVec S_ 32 := constantI S_ 32 100000#32
  let main_v21 : IVec S1600000 32 := broadcastInDim S1600000 ![] bcast_S_S1600000 main_c_7
  let main_v22 : IVec S1600000 1 := cmpi .slt main_arg1 main_v21
  let main_v23 : IVec S1600000 1 := andi main_v20 main_v22
  let main_c_8 : IVec S_ 1 := constantI S_ 1 1#1
  let main_v24 : IVec S_ 1 := (fun x v => Host.reduce IntOp.andi x v reducesTo_S1600000_S_d0 h_S_) main_v23 main_c_8
  let main_v25 : IVec S_ 1 := andi main_v18 main_v24
  main_v25

def fn {F : FTy → Type} [FloatOps F] (main_arg0 : FVec F S100000x256 .f32) (main_arg1 : IVec S1600000 32) (main_arg2 : IVec S1600000 32) (main_arg3 : FVec F S1600000 .f32) (main_arg4 : FVec F S256x128 .f32) (main_arg5 : FVec F S128 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S256x128 .f32 := Host.absf main_arg4
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_v13 main_v16
-- ==== Kernel.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S100000x128 : Shape := ⟨2, ![100000, 128]⟩
abbrev S5000x256 : Shape := ⟨2, ![5000, 256]⟩
abbrev S5000x128 : Shape := ⟨2, ![5000, 128]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x128 : Shape := ⟨2, ![1600000, 128]⟩
abbrev S1x128 : Shape := ⟨2, ![1, 128]⟩

abbrev nBuf : Space → Nat
  | .hbm => 39
  | .vmem => 10
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S256x128, .f32⟩
  | .hbm, ⟨5, _⟩ => ⟨S128, .f32⟩
  | .hbm, ⟨6, _⟩ => ⟨S100000x128, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1, .i32⟩
  | .hbm, ⟨16, _⟩ => ⟨S_, .i32⟩
  | .hbm, ⟨17, _⟩ => ⟨S1600000x1, .i32⟩
  | .hbm, ⟨18, _⟩ => ⟨S1600000x1, .i1⟩
  | .hbm, ⟨19, _⟩ => ⟨S1x1, .i32⟩
  | .hbm, ⟨20, _⟩ => ⟨S1600000x1, .i32⟩
  | .hbm, ⟨21, _⟩ => ⟨S1600000x1, .i1⟩
  | .hbm, ⟨22, _⟩ => ⟨S1600000x1, .i1⟩
  | .hbm, ⟨23, _⟩ => ⟨S_, .i1⟩
  | .hbm, ⟨24, _⟩ => ⟨S1600000, .i1⟩
  | .hbm, ⟨25, _⟩ => ⟨S1600000x128, .f32⟩
  | .hbm, ⟨26, _⟩ => ⟨S1600000x128, .i1⟩
  | .hbm, ⟨27, _⟩ => ⟨S_, .f32⟩
  | .hbm, ⟨28, _⟩ => ⟨S1600000x128, .f32⟩
  | .hbm, ⟨29, _⟩ => ⟨S1600000x128, .f32⟩
  | .hbm, ⟨30, _⟩ => ⟨S1600000x1, .f32⟩
  | .hbm, ⟨31, _⟩ => ⟨S1600000x128, .f32⟩
  | .hbm, ⟨32, _⟩ => ⟨S1600000x128, .f32⟩
  | .hbm, ⟨33, _⟩ => ⟨S_, .f32⟩
  | .hbm, ⟨34, _⟩ => ⟨S100000x128, .f32⟩
  | .hbm, ⟨35, _⟩ => ⟨S1600000x1, .i32⟩
  | .hbm, ⟨36, _⟩ => ⟨S100000x128, .f32⟩
  | .hbm, ⟨37, _⟩ => ⟨S1x128, .f32⟩
  | .hbm, ⟨38, _⟩ => ⟨S100000x128, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_cst : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  dot_S5000x256_S256x128_S5000x128_1_0_0_1_n_n_wf : DotDims.WF S5000x256 S256x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v7) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S100000x128 : Shape := ⟨2, ![100000, 128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 29
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S256x128, .f32⟩
  | .hbm, ⟨5, _⟩ => ⟨S128, .f32⟩
  | .hbm, ⟨6, _⟩ => ⟨S100000x128, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S1600000x1, .f32⟩
  | .hbm, ⟨17, _⟩ => ⟨S1600000x128, .f32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S1x128, .f32⟩
  | .hbm, ⟨24, _⟩ => ⟨S100000x128, .f32⟩
  | .hbm, ⟨25, _⟩ => ⟨S100000x128, .f32⟩
  | .hbm, ⟨26, _⟩ => ⟨S_, .f32⟩
  | .hbm, ⟨27, _⟩ => ⟨S100000x128, .f32⟩
  | .hbm, ⟨28, _⟩ => ⟨S100000x128, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.LibPlainMatmul.lean ====
/-
  A plain matrix product read at an index.

  `DotDims.plain M K N` contracts axis 1 of an `M × K` operand with axis 0 of a `K × N` operand, with no batch
  axis. At the ideal values a `tpu.matmul` with these dimension numbers into the zero accumulator is, at
  `(i, j)`, the sum over `k : Fin K` of `l (i, k) * r (k, j)` on the extended reals: the library's sum over the
  contraction shape's indices (`Ideal.matmul_constant_zero_apply`) re-indexed by the one coordinate of that shape
  (`ValueIdx.contrEquiv1`), the operand indices read off the dimension numbers.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The left operand's index at result `j` and contraction coordinate `k` is `(j 0, k)`. -/
theorem plain_lhsIdx (M K N : ℕ) (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl j _).trans hk

/-- The right operand's index at result `j` and contraction coordinate `k` is `(k, j 1)`. -/
theorem plain_rhsIdx (M K N : ℕ) (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single (cr := 0) rfl j _).trans hk
  | ⟨1, _⟩ => rfl

/-- A plain matmul into the zero accumulator, at an index: the sum of the products along the contracted axis. -/
theorem matmul_plain_zero_apply {φ₁ φ₂ : FTy} (M K N : ℕ) (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) := by
  rw [Ideal.matmul_constant_zero_apply, ← Equiv.sum_comp (contrEquiv1 (DotDims.plain M K N) K rfl rfl).symm]
  refine Finset.sum_congr rfl fun k _ => ?_
  rw [plain_lhsIdx, plain_rhsIdx]
  rfl

end Cert.Lib

end
-- ==== Proof.LibRowOps.lean ====
/-
  Rows of dense layers read at an index, at the ideal values.

  A dense layer acts on each row of its input by itself: a bias row is added to the row and the positive part taken
  (`reluRow`), and the row is multiplied into a weight matrix (`projRow`). The lemmas here read each of these steps
  at an entry `(r, j)` as one of the two row functions of row `r`: the host's `dot_general` with the plain dimension
  numbers and a `tpu.matmul` into the zero accumulator are the same sum along the contracted axis, a `[1, K]` row
  broadcast down an `[M, K]` array reads the row's entry, and the fused `max (x + b) z` forms are the ones a kernel
  body spells with a shape cast of the block and of the bias row.
-/
import Idealize.ShloMosaic.PureOps.Ideal
import Idealize.ShloMosaic.PureOps.Ideal.Laws
import Idealize.ShloMosaic.Lib.ValueIdx
import Idealize.ShloMosaic.Lib.Pipeline.Value
import proofs.«411881_j21320217657349_1_alg».proof.Proof.LibPlainMatmul

noncomputable section

namespace Cert.Lib

open Idealize.ShloMosaic Idealize.ShloMosaic.ValueIdx

/-- A row `x` of length `K` against the columns of a `[K, N]` matrix: entry `j` is the sum of the products along `k`. -/
def projRow {K N : ℕ} (x : Fin K → EReal) (W : (⟨2, ![K, N]⟩ : Shape).Idx → EReal) : Fin N → EReal :=
  fun j => ∑ k : Fin K, x k * W (ix2 k j)

/-- A row `x` plus the bias row `B` (an array of shape `[1, K]`), each entry then capped below by `z`. -/
def reluRow {K : ℕ} (x : Fin K → EReal) (B : (⟨2, ![1, K]⟩ : Shape).Idx → EReal) (z : EReal) : Fin K → EReal :=
  fun k => max (x k + B (ix2 (0 : Fin 1) k)) z

/-- The host's `dot_general` with the plain dimension numbers, at an index: the same sum along the contracted axis. -/
theorem dotGeneral_plain_apply {φ₁ φ₂ : FTy} (M K N : ℕ) (prec : Option ContractPrecision)
    (l : FVec Ideal ⟨2, ![M, K]⟩ φ₁) (r : FVec Ideal ⟨2, ![K, N]⟩ φ₂) (j : (⟨2, ![M, N]⟩ : Shape).Idx) :
    Host.dotGeneral (DotDims.plain M K N) prec l r j = ∑ k : Fin K, l (ix2 (j 0) k) * r (ix2 k (j 1)) := by
  simp only [Host.dotGeneral]
  rw [Ideal.dotGeneral_apply, ← Equiv.sum_comp (contrEquiv1 (DotDims.plain M K N) K rfl rfl).symm]
  refine Finset.sum_congr rfl fun k _ => ?_
  rw [plain_lhsIdx, plain_rhsIdx]
  rfl

/-- The host's plain `dot_general` at `(i, j)`: row `i` of the left operand against the right operand's columns. -/
theorem dotGeneral_rows_apply {M K N : ℕ} (prec : Option ContractPrecision)
    (l : FVec Ideal ⟨2, ![M, K]⟩ .f32) (w : FVec Ideal ⟨2, ![K, N]⟩ .f32) (i : Fin M) (j : Fin N) :
    Host.dotGeneral (DotDims.plain M K N) prec l w (ix2 i j) = projRow (fun k => l (ix2 i k)) w j :=
  dotGeneral_plain_apply M K N prec l w (ix2 i j)

/-- A `[1, K]` row broadcast down the rows of an `[M, K]` array reads, at `(r, k)`, the row's entry `k`. -/
theorem broadcastTo_row_apply {α : Type} {M K : ℕ} (b : (⟨2, ![1, K]⟩ : Shape).Idx → α)
    (h : (⟨2, ![1, K]⟩ : Shape).Broadcasts ⟨2, ![M, K]⟩) (r : Fin M) (k : Fin K) :
    broadcastTo ⟨2, ![M, K]⟩ b h (ix2 r k) = b (ix2 (0 : Fin 1) k) := by
  refine broadcastTo_apply b h (ix2 r k) (ix2 (0 : Fin 1) k) fun ax => ?_
  match ax with
  | ⟨0, _⟩ => rfl
  | ⟨1, _⟩ =>
    show k.val = if K = 1 then 0 else k.val
    split
    · have := k.isLt; omega
    · rfl

/-- A bias row added to every row of a block, then the positive part against the splat `z`, at `(r, k)`. -/
theorem biasRelu_apply {M K : ℕ} (x : FVec Ideal ⟨2, ![M, K]⟩ .f32) (b : FVec Ideal ⟨2, ![1, K]⟩ .f32)
    (h1 : (⟨2, ![M, K]⟩ : Shape).ShapeCasts ⟨2, ![M, K]⟩) (h2 : (⟨2, ![1, K]⟩ : Shape).ShapeCasts ⟨2, ![1, K]⟩)
    (h3 : (⟨2, ![1, K]⟩ : Shape).Broadcasts ⟨2, ![M, K]⟩) (z : Ideal .f32) (r : Fin M) (k : Fin K) :
    maximumf (addf (shapeCast ⟨2, ![M, K]⟩ x h1) (broadcastTo ⟨2, ![M, K]⟩ (shapeCast ⟨2, ![1, K]⟩ b h2) h3))
        (broadcast ⟨2, ![M, K]⟩ z) (ix2 r k)
      = reluRow (fun k => x (ix2 r k)) b z k := by
  rw [maximumf_apply, addf_apply, shapeCast_self, shapeCast_self, broadcast_apply, broadcastTo_row_apply]
  rfl

/-- A matrix product's entry plus the bias row's, then the positive part against the splat `z`, at `(r, j)`. -/
theorem addBiasRelu_apply {M N : ℕ} (y : FVec Ideal ⟨2, ![M, N]⟩ .f32) (b : FVec Ideal ⟨2, ![1, N]⟩ .f32)
    (h2 : (⟨2, ![1, N]⟩ : Shape).ShapeCasts ⟨2, ![1, N]⟩)
    (h3 : (⟨2, ![1, N]⟩ : Shape).Broadcasts ⟨2, ![M, N]⟩) (z : Ideal .f32) (r : Fin M) (j : Fin N) :
    maximumf (addf y (broadcastTo ⟨2, ![M, N]⟩ (shapeCast ⟨2, ![1, N]⟩ b h2) h3))
        (broadcast ⟨2, ![M, N]⟩ z) (ix2 r j)
      = reluRow (fun j => y (ix2 r j)) b z j := by
  rw [maximumf_apply, addf_apply, shapeCast_self, broadcast_apply, broadcastTo_row_apply]
  rfl

/-- A plain matmul into the zero accumulator at `(r, j)`: the row `r` of the left operand against column `j`. -/
theorem matmul_rows_apply {M K N : ℕ} (prec : Option ContractPrecision)
    (l : FVec Ideal ⟨2, ![M, K]⟩ .f32) (w : FVec Ideal ⟨2, ![K, N]⟩ .f32) (r : Fin M) (j : Fin N) :
    FloatOps.matmul (DotDims.plain M K N) prec l w (constant ⟨2, ![M, N]⟩ .f32 0x00000000#32) (ix2 r j)
      = projRow (fun k => l (ix2 r k)) w j :=
  matmul_plain_zero_apply M K N prec l w (ix2 r j)

/-! ## The same steps on whole arrays -/

/-- Every row of an `[M, K]` array plus the bias row, capped below by `z`. -/
def reluArr {M K : ℕ} (A : (⟨2, ![M, K]⟩ : Shape).Idx → EReal) (B : (⟨2, ![1, K]⟩ : Shape).Idx → EReal) (z : EReal) :
    (⟨2, ![M, K]⟩ : Shape).Idx → EReal :=
  fun i => reluRow (fun k => A (ix2 (i 0) k)) B z (i 1)

/-- Every row of an `[M, K]` array against the columns of a `[K, N]` matrix. -/
def projArr {M K N : ℕ} (X : (⟨2, ![M, K]⟩ : Shape).Idx → EReal) (W : (⟨2, ![K, N]⟩ : Shape).Idx → EReal) :
    (⟨2, ![M, N]⟩ : Shape).Idx → EReal :=
  fun i => projRow (fun k => X (ix2 (i 0) k)) W (i 1)

theorem reluArr_apply {M K : ℕ} (A : (⟨2, ![M, K]⟩ : Shape).Idx → EReal) (B : (⟨2, ![1, K]⟩ : Shape).Idx → EReal) (z : EReal)
    (r : Fin M) (k : Fin K) : reluArr A B z (ix2 r k) = reluRow (fun k => A (ix2 r k)) B z k := rfl

theorem projArr_apply {M K N : ℕ} (X : (⟨2, ![M, K]⟩ : Shape).Idx → EReal) (W : (⟨2, ![K, N]⟩ : Shape).Idx → EReal)
    (r : Fin M) (j : Fin N) : projArr X W (ix2 r j) = projRow (fun k => X (ix2 r k)) W j := rfl

/-- A kernel body's fused bias and positive part of a loaded block, as a whole-block function. -/
theorem kernel_biasRelu_eq {M K : ℕ} (x : FVec Ideal ⟨2, ![M, K]⟩ .f32) (b : FVec Ideal ⟨2, ![1, K]⟩ .f32)
    (h1 : (⟨2, ![M, K]⟩ : Shape).ShapeCasts ⟨2, ![M, K]⟩) (h2 : (⟨2, ![1, K]⟩ : Shape).ShapeCasts ⟨2, ![1, K]⟩)
    (h3 : (⟨2, ![1, K]⟩ : Shape).Broadcasts ⟨2, ![M, K]⟩) (z : Ideal .f32) :
    maximumf (addf (shapeCast ⟨2, ![M, K]⟩ x h1) (broadcastTo ⟨2, ![M, K]⟩ (shapeCast ⟨2, ![1, K]⟩ b h2) h3))
        (broadcast ⟨2, ![M, K]⟩ z) = reluArr x b z := by
  funext i
  obtain ⟨r, k, rfl⟩ : ∃ (r : Fin M) (k : Fin K), i = ix2 r k := ⟨i 0, i 1, eq_ix2 i⟩
  exact biasRelu_apply x b h1 h2 h3 z r k

/-- The same on a computed block (a matrix product), which the body does not shape-cast. -/
theorem kernel_addBiasRelu_eq {M N : ℕ} (y : FVec Ideal ⟨2, ![M, N]⟩ .f32) (b : FVec Ideal ⟨2, ![1, N]⟩ .f32)
    (h2 : (⟨2, ![1, N]⟩ : Shape).ShapeCasts ⟨2, ![1, N]⟩)
    (h3 : (⟨2, ![1, N]⟩ : Shape).Broadcasts ⟨2, ![M, N]⟩) (z : Ideal .f32) :
    maximumf (addf y (broadcastTo ⟨2, ![M, N]⟩ (shapeCast ⟨2, ![1, N]⟩ b h2) h3))
        (broadcast ⟨2, ![M, N]⟩ z) = reluArr y b z := by
  funext i
  obtain ⟨r, j, rfl⟩ : ∃ (r : Fin M) (j : Fin N), i = ix2 r j := ⟨i 0, i 1, eq_ix2 i⟩
  exact addBiasRelu_apply y b h2 h3 z r j

/-- A plain matmul into the zero accumulator, as a whole-block function. -/
theorem kernel_matmul_eq {M K N : ℕ} (prec : Option ContractPrecision)
    (l : FVec Ideal ⟨2, ![M, K]⟩ .f32) (w : FVec Ideal ⟨2, ![K, N]⟩ .f32) :
    FloatOps.matmul (DotDims.plain M K N) prec l w (constant ⟨2, ![M, N]⟩ .f32 0x00000000#32) = projArr l w := by
  funext i
  obtain ⟨r, j, rfl⟩ : ∃ (r : Fin M) (j : Fin N), i = ix2 r j := ⟨i 0, i 1, eq_ix2 i⟩
  exact matmul_rows_apply prec l w r j

/-- The host's plain `dot_general`, as a whole-array function. -/
theorem host_dot_eq {M K N : ℕ} (prec : Option ContractPrecision)
    (l : FVec Ideal ⟨2, ![M, K]⟩ .f32) (w : FVec Ideal ⟨2, ![K, N]⟩ .f32) :
    Host.dotGeneral (DotDims.plain M K N) prec l w = projArr l w := by
  funext i
  obtain ⟨r, j, rfl⟩ : ∃ (r : Fin M) (j : Fin N), i = ix2 r j := ⟨i 0, i 1, eq_ix2 i⟩
  exact dotGeneral_rows_apply prec l w r j

/-- The host's bias and positive part: a length-`K` bias broadcast to a row, then down the rows; the positive part
    against the broadcast zero word. The bias row is the bias vector viewed as a `[1, K]` array. -/
theorem host_biasRelu_eq {M K : ℕ} (A : FVec Ideal ⟨2, ![M, K]⟩ .f32) (b : FVec Ideal ⟨1, ![K]⟩ .f32)
    (h1 : (⟨2, ![1, K]⟩ : Shape).BroadcastsInDim ⟨2, ![M, K]⟩ ![0, 1])
    (h2 : (⟨1, ![K]⟩ : Shape).BroadcastsInDim ⟨2, ![1, K]⟩ ![1])
    (h3 : (⟨0, ![]⟩ : Shape).BroadcastsInDim ⟨2, ![M, K]⟩ ![])
    (h4 : (⟨1, ![K]⟩ : Shape).ShapeCasts ⟨2, ![1, K]⟩) (w : BitVec 32) :
    maximumf (addf A (broadcastInDim ⟨2, ![M, K]⟩ ![0, 1] h1 (broadcastInDim ⟨2, ![1, K]⟩ ![1] h2 b)))
        (broadcastInDim ⟨2, ![M, K]⟩ ![] h3 (constant ⟨0, ![]⟩ .f32 w))
      = reluArr A (shapeCast ⟨2, ![1, K]⟩ b h4) (Ideal.ofBits .f32 w) := by
  funext i
  obtain ⟨r, k, rfl⟩ : ∃ (r : Fin M) (k : Fin K), i = ix2 r k := ⟨i 0, i 1, eq_ix2 i⟩
  rw [maximumf_apply, addf_apply, reluArr_apply]
  have e1 : broadcastInDim ⟨2, ![M, K]⟩ ![0, 1] h1 (broadcastInDim ⟨2, ![1, K]⟩ ![1] h2 b) (ix2 r k) = b (ix1 k) := by
    rw [broadcastInDim_apply ![0, 1] h1 _ (ix2 r k) (ix2 (0 : Fin 1) k) (fun ax => by
      match ax with
      | ⟨0, _⟩ => rfl
      | ⟨1, _⟩ =>
        show k.val = if K = 1 then 0 else k.val
        split
        · have := k.isLt; omega
        · rfl)]
    exact broadcastInDim_apply ![1] h2 b (ix2 (0 : Fin 1) k) (ix1 k) (fun ax => by
      match ax with
      | ⟨0, _⟩ =>
        show k.val = if K = 1 then 0 else k.val
        split
        · have := k.isLt; omega
        · rfl)
  have e2 : broadcastInDim ⟨2, ![M, K]⟩ ![] h3 (constant ⟨0, ![]⟩ .f32 w) (ix2 r k) = Ideal.ofBits .f32 w :=
    broadcastInDim_apply ![] h3 _ (ix2 r k) ix0 (fun ax => ax.elim0)
  have e3 : shapeCast ⟨2, ![1, K]⟩ b h4 (ix2 (0 : Fin 1) k) = b (ix1 k) :=
    shapeCast_apply b h4 _ _ (by
      rw [Shape.rowMajor_val_two, Shape.rowMajor_val_one]
      show k.val = 0 * K + k.val
      omega)
  rw [e1, e2]
  show max (A (ix2 r k) + b (ix1 k)) (Ideal.ofBits .f32 w) = max (A (ix2 r k) + shapeCast ⟨2, ![1, K]⟩ b h4 (ix2 (0 : Fin 1) k)) (Ideal.ofBits .f32 w)
  rw [e3]

end Cert.Lib

end
-- ==== Proof.ProjectValue.lean ====
/-
  The projection region, as one whole-array function.

  The first region cuts the node features into twenty blocks of 5000 rows; at each block it multiplies the block's rows
  into the whole weight matrix (the operands narrowed to sixteen bits first, which at the ideal values changes nothing)
  and writes the 5000 product rows back to the same rows of the support array. Row r of block t is row 5000 t + r of the
  array, so every block written is the block of ONE function of the arrays: row i of the support is row i of the
  features against the columns of the weights. The twenty blocks tile the support, so after the region the support is
  that function everywhere.
-/
import proofs.«411881_j21320217657349_1_alg».proof.Proof.Gen.KernelIdeal.Frame
import proofs.«411881_j21320217657349_1_alg».proof.Proof.LibRowOps
import Idealize.ShloMosaic.Lib.Pipeline.Value
import Idealize.ShloMosaic.Lib.ValueIdx

set_option maxRecDepth 16384

noncomputable section

namespace Cert.KernelIdeal.ProjectValue

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The node features and the weights as the region finds them. -/
abbrev feats (c : Dev nD) : FVec Ideal S100000x256 .f32 := V c main_arg0
abbrev weights (c : Dev nD) : FVec Ideal S256x128 .f32 := V c main_arg4

/-- The body's product of a block of rows with the weights is each row against the weights' columns. -/
theorem body_eq (x0 : Vec Ideal S5000x256 .f32) (x1 : Vec Ideal S256x128 .f32) :
    k0_pay1 x0 x1 = Cert.Lib.projArr x0 x1 :=
  Cert.Lib.kernel_matmul_eq (M := 5000) (K := 256) (N := 128) none x0 x1

/-- The printed index maps over the grid: the feature block and the support block move together down the rows, the
    weights stay whole. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 19 :=
  (by decide +kernel : ∀ t : Fin grid0.N, _)

/-- Every block of rows is some point's. -/
theorem index_onto : ∀ q : Fin 20, ∃ t : Fin cfg0.N, win0_2.index t = ![q.val, 0] :=
  (by decide +kernel : ∀ q : Fin 20, ∃ t : Fin grid0.N, win0_2.index t = ![q.val, 0])

/-- What point t writes back is block t of the rows' products. -/
theorem flushed_eq (c : Dev nD) (t : Fin cfg0.N) :
    (dat0 V c).flushed 2 t
      = ((cfg0.win 2).blk t).view.read (Elt Ideal) (Cert.Lib.projArr (feats V c) (weights V c)) := by
  show (cfg0.win 2).cut (grid0.coords t) ((dat0 V c).after 2 t) = _
  rw [after0_2]
  unfold out0_2
  rw [View.canon_unit_zero origin]
  simp only [View.ld_unit_zero (S := S5000x256) origin, View.ld_unit_zero (S := S256x128) origin]
  rw [body_eq]
  obtain ⟨e0, e1, e2, e3, e4, e5⟩ := index_facts t
  funext j
  show Cert.Lib.projArr (iblk0 V c 0 t) (iblk0 V c 1 t) j
    = Cert.Lib.projArr (feats V c) (weights V c) (((cfg0.win 2).blk t).view.emb j)
  unfold Cert.Lib.projArr Cert.Lib.projRow
  refine Finset.sum_congr rfl fun k _ => ?_
  have hx : iblk0 V c 0 t (ix2 (j 0) k) = feats V c (ix2 ((((cfg0.win 2).blk t).view.emb j) 0) k) := by
    show feats V c (((cfg0.win 0).blk t).view.emb (ix2 (j 0) k)) = _
    refine congrArg (feats V c) (funext fun a => Fin.ext ?_)
    match a with
    | ⟨0, _⟩ =>
      show win0_0.index t (0 : Fin 2) * 5000 + 1 * (j 0).val = win0_2.index t (0 : Fin 2) * 5000 + 1 * (j 0).val
      omega
    | ⟨1, _⟩ =>
      show win0_0.index t (1 : Fin 2) * 256 + 1 * k.val = k.val
      omega
  have hw : iblk0 V c 1 t (ix2 k (j 1)) = weights V c (ix2 k ((((cfg0.win 2).blk t).view.emb j) 1)) := by
    show weights V c (((cfg0.win 1).blk t).view.emb (ix2 k (j 1))) = _
    refine congrArg (weights V c) (funext fun a => Fin.ext ?_)
    match a with
    | ⟨0, _⟩ =>
      show win0_1.index t (0 : Fin 2) * 256 + 1 * k.val = k.val
      omega
    | ⟨1, _⟩ =>
      show win0_1.index t (1 : Fin 2) * 128 + 1 * (j 1).val = win0_2.index t (1 : Fin 2) * 128 + 1 * (j 1).val
      omega
  exact congrArg₂ (· * ·) hx hw

/-- An index of the support is in point t's block iff each coordinate is in the block's range on its axis. -/
theorem mem_block (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v0).slice (win0_2.rect t)).set ↔ _
  rw [View.set_slice_whole, Rect.mem_set_unit]
  exact Iff.rfl

/-- Row i of the support lies in the block of the point whose rows start at 5000 (i / 5000). -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := index_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

/-- After the region the support array is the features' rows against the weights' columns. -/
theorem support_eq (c : Dev nD) :
    (dat0 V c).arrAt 2 cfg0.N = Cert.Lib.projArr (feats V c) (weights V c) :=
  (dat0 V c).arrAt_eq_of_cover 2 _ (fun t _ => flushed_eq V c t) covered

end Cert.KernelIdeal.ProjectValue

end
-- ==== Proof.ReluValue.lean ====
/-
  The bias and positive-part region, as one whole-array function.

  The second region cuts the aggregated messages into twenty blocks of 5000 rows; at each block it adds the bias row to
  every row and takes the larger of the sum and zero, and writes the 5000 rows back to the same rows of the result.
  Row r of block t is row 5000 t + r of the array, so every block written is the block of ONE function of the arrays:
  entry (i, k) of the result is the larger of zero and the aggregate's entry (i, k) plus the bias row's entry k. The
  twenty blocks tile the result, so after the region the result is that function everywhere.
-/
import proofs.«411881_j21320217657349_1_alg».proof.Proof.Gen.KernelIdeal.Frame
import proofs.«411881_j21320217657349_1_alg».proof.Proof.LibRowOps
import Idealize.ShloMosaic.Lib.Pipeline.Value
import Idealize.ShloMosaic.Lib.ValueIdx

set_option maxRecDepth 16384

noncomputable section

namespace Cert.KernelIdeal.ReluValue

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The aggregated messages and the bias row as the region finds them. -/
abbrev agg (c : Dev nD) : FVec Ideal S100000x128 .f32 := V c main_v7
abbrev biasRow (c : Dev nD) : FVec Ideal S1x128 .f32 := V c main_v8

/-- The body's zero. -/
abbrev zero : Ideal .f32 := Scalar.ofBits (F := Ideal) .f32 0x00000000#32

/-- The body adds the bias row to every row of its block and caps the sums below by zero. -/
theorem body_eq (x0 : Vec Ideal S5000x128 .f32) (x1 : Vec Ideal S1x128 .f32) :
    k1_pay1 x0 x1 = Cert.Lib.reluArr x0 x1 zero :=
  Cert.Lib.kernel_biasRelu_eq (M := 5000) (K := 128) x0 x1 _ _ _ zero

/-- The printed index maps over the grid: the aggregate's block and the result's block move together down the rows,
    the bias row stays whole. -/
theorem index_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 19 :=
  (by decide +kernel : ∀ t : Fin grid1.N, _)

/-- Every block of rows is some point's. -/
theorem index_onto : ∀ q : Fin 20, ∃ t : Fin cfg1.N, win1_2.index t = ![q.val, 0] :=
  (by decide +kernel : ∀ q : Fin 20, ∃ t : Fin grid1.N, win1_2.index t = ![q.val, 0])

/-- What point t writes back is block t of the biased, capped aggregate. -/
theorem flushed_eq (c : Dev nD) (t : Fin cfg1.N) :
    (dat1 V c).flushed 2 t
      = ((cfg1.win 2).blk t).view.read (Elt Ideal) (Cert.Lib.reluArr (agg V c) (biasRow V c) zero) := by
  show (cfg1.win 2).cut (grid1.coords t) ((dat1 V c).after 2 t) = _
  rw [after1_2]
  unfold out1_2
  rw [View.canon_unit_zero origin]
  simp only [View.ld_unit_zero (S := S5000x128) origin, View.ld_unit_zero (S := S1x128) origin]
  rw [body_eq]
  obtain ⟨e0, e1, e2, e3, e4, e5⟩ := index_facts t
  funext j
  show Cert.Lib.reluArr (iblk1 V c 0 t) (iblk1 V c 1 t) zero j
    = Cert.Lib.reluArr (agg V c) (biasRow V c) zero (((cfg1.win 2).blk t).view.emb j)
  unfold Cert.Lib.reluArr Cert.Lib.reluRow
  have hx : iblk1 V c 0 t (ix2 (j 0) (j 1))
      = agg V c (ix2 ((((cfg1.win 2).blk t).view.emb j) 0) ((((cfg1.win 2).blk t).view.emb j) 1)) := by
    show agg V c (((cfg1.win 0).blk t).view.emb (ix2 (j 0) (j 1))) = _
    refine congrArg (agg V c) (funext fun a => Fin.ext ?_)
    match a with
    | ⟨0, _⟩ =>
      show win1_0.index t (0 : Fin 2) * 5000 + 1 * (j 0).val = win1_2.index t (0 : Fin 2) * 5000 + 1 * (j 0).val
      omega
    | ⟨1, _⟩ =>
      show win1_0.index t (1 : Fin 2) * 128 + 1 * (j 1).val = win1_2.index t (1 : Fin 2) * 128 + 1 * (j 1).val
      omega
  have hb : iblk1 V c 1 t (ix2 (0 : Fin 1) (j 1))
      = biasRow V c (ix2 (0 : Fin 1) ((((cfg1.win 2).blk t).view.emb j) 1)) := by
    show biasRow V c (((cfg1.win 1).blk t).view.emb (ix2 (0 : Fin 1) (j 1))) = _
    refine congrArg (biasRow V c) (funext fun a => Fin.ext ?_)
    match a with
    | ⟨0, _⟩ =>
      show win1_1.index t (0 : Fin 2) * 1 + 1 * 0 = 0
      omega
    | ⟨1, _⟩ =>
      show win1_1.index t (1 : Fin 2) * 128 + 1 * (j 1).val = win1_2.index t (1 : Fin 2) * 128 + 1 * (j 1).val
      omega
  exact congrArg₂ (fun a b => max (a + b) zero) hx hb

/-- An index of the result is in point t's block iff each coordinate is in the block's range on its axis. -/
theorem mem_block (t : Fin cfg1.N) (i : S100000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v9).slice (win1_2.rect t)).set ↔ _
  rw [View.set_slice_whole, Rect.mem_set_unit]
  exact Iff.rfl

/-- Row i of the result lies in the block of the point whose rows start at 5000 (i / 5000). -/
theorem covered (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := index_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_block]
  intro a
  match a with
  | ⟨0, _⟩ =>
    show win1_2.index t (0 : Fin 2) * 5000 ≤ (i 0).val ∧ (i 0).val < win1_2.index t (0 : Fin 2) * 5000 + 5000
    omega
  | ⟨1, _⟩ =>
    show win1_2.index t (1 : Fin 2) * 128 ≤ (i 1).val ∧ (i 1).val < win1_2.index t (1 : Fin 2) * 128 + 128
    omega

/-- After the region the result array is the aggregate plus the bias row, capped below by zero. -/
theorem result_eq (c : Dev nD) :
    (dat1 V c).arrAt 2 cfg1.N = Cert.Lib.reluArr (agg V c) (biasRow V c) zero :=
  (dat1 V c).arrAt_eq_of_cover 2 _ (fun t _ => flushed_eq V c t) covered

end Cert.KernelIdeal.ReluValue

end
-- ==== Proof.IndexRange.lean ====
/-
  Source indices in range.

  A source index s is a 32-bit word read signed. Both programs first wrap a negative index, n = s + 100000 when
  s < 0 and n = s otherwise, which is how an index counted from the end of a table of 100000 rows is read. When
  -100000 ≤ s < 100000 the wrapped index lies in 0 ≤ n ≤ 99999, with no overflow of the 32-bit sum. A gather that
  guards its rows by the test 0 ≤ n ∧ n ≤ 99999 therefore keeps every row: the row-wise conjunction of the two
  comparisons is the constant one, and selecting between the gathered rows and a fill value under that mask returns the
  gathered rows. The last lemma reads the range of every source index off a precondition that ends in the conjunction,
  over all indices, of the two comparisons s ≥ -100000 and s < 100000.
-/
import Idealize.ShloMosaic.PureOps
import Idealize.ShloMosaic.PureOps.Reduce
import Idealize.ShloMosaic.Lib.Affine
import Idealize.ShloMosaic.Lib.ReduceAll

noncomputable section

namespace Cert.IndexRange

open Idealize.ShloMosaic

/-- The word the printer writes for -100000 reads signed as -100000. -/
theorem toInt_neg : (4294867296#32 : BitVec 32).toInt = -100000 := by decide

theorem toInt_pos : (100000#32 : BitVec 32).toInt = 100000 := by decide

theorem toInt_last : (99999#32 : BitVec 32).toInt = 99999 := by decide

theorem toInt_zero : (0#32 : BitVec 32).toInt = 0 := by decide

/-- The wrapped index of a source index in [-100000, 100000) passes both bounds tests of the guarded gather. -/
theorem wrap_in_range (s : BitVec 32) (h : (-100000 : Int) ≤ s.toInt ∧ s.toInt < 100000) :
    IntOp.cmpi .sge (Scalar.select (IntOp.cmpi .slt s 0#32) (IntOp.addi s 100000#32) s) 0#32 = 1#1
      ∧ IntOp.cmpi .sle (Scalar.select (IntOp.cmpi .slt s 0#32) (IntOp.addi s 100000#32) s) 99999#32 = 1#1 := by
  obtain ⟨h1, h2⟩ := h
  rw [IntOp.cmpi_sge, IntOp.cmpi_sle, toInt_zero, toInt_last]
  unfold Scalar.select
  by_cases hneg : s.toInt < 0
  · have hc : IntOp.cmpi .slt s 0#32 = 1 := IntOp.cmpi_slt.2 (by rw [toInt_zero]; exact hneg)
    rw [if_pos hc]
    have hsum : (IntOp.addi s 100000#32).toInt = s.toInt + 100000 := by
      rw [IntOp.addi, BitVec.toInt_add, toInt_pos]
      exact Int.bmod_eq_of_le (by omega) (by omega)
    rw [hsum]
    omega
  · have hc : ¬ IntOp.cmpi .slt s 0#32 = 1 := fun hc => hneg (by have := IntOp.cmpi_slt.1 hc; rwa [toInt_zero] at this)
    rw [if_neg hc]
    omega

/-- A fold by and, from one, over ones is one. -/
theorem foldl_andi_ones {ι : Type} (l : List ι) : l.foldl (fun r _ => IntOp.andi r (1#1 : BitVec 1)) 1#1 = 1#1 := by
  induction l with
  | nil => rfl
  | cons a l ih => exact ih

/-- A reduce by and, from the initial value one, of an array of ones is one at every result index. -/
theorem reduce_andi_ones {s t u : Shape} {axes : List (Fin s.rank)} (init : u.Idx → BitVec 1) (h : s.ReducesTo axes t)
    (hu : 0 < u.numel) (hinit : init (Shape.Idx.first hu) = 1#1) :
    Host.reduce IntOp.andi (fun _ : s.Idx => (1#1 : BitVec 1)) init h hu = fun _ => 1#1 := by
  funext j
  rw [Host.reduce_eq_foldl, hinit]
  exact foldl_andi_ones _

variable {sE sE1 s0 s1 s11 : Shape}

/-- The wrapped indices, as a column. -/
abbrev wrapped (a : IVec sE 32) {d0 : Fin s0.rank → Fin sE.rank} (h0 : s0.BroadcastsInDim sE d0)
    {dE : Fin sE.rank → Fin sE1.rank} (hE : sE.BroadcastsInDim sE1 dE) : IVec sE1 32 :=
  broadcastInDim sE1 dE hE
    (select (cmpi .slt a (broadcastInDim sE d0 h0 (constantI s0 32 0#32)))
      (addi a (broadcastInDim sE d0 h0 (constantI s0 32 100000#32))) a)

/-- The guarded gather's row mask is all ones when every source index is in [-100000, 100000). -/
theorem mask_ones (a : IVec sE 32) (ha : ∀ e, (-100000 : Int) ≤ (a e).toInt ∧ (a e).toInt < 100000)
    {d0 : Fin s0.rank → Fin sE.rank} (h0 : s0.BroadcastsInDim sE d0)
    {dE : Fin sE.rank → Fin sE1.rank} (hE : sE.BroadcastsInDim sE1 dE)
    {d01 : Fin s0.rank → Fin sE1.rank} (h01 : s0.BroadcastsInDim sE1 d01)
    {d1 : Fin s1.rank → Fin s11.rank} (h1 : s1.BroadcastsInDim s11 d1)
    {d11 : Fin s11.rank → Fin sE1.rank} (h11 : s11.BroadcastsInDim sE1 d11)
    {axes : List (Fin sE1.rank)} (hr : sE1.ReducesTo axes sE) (hu : 0 < s0.numel) :
    Host.reduce IntOp.andi
      (andi (cmpi .sge (wrapped a h0 hE) (broadcastInDim sE1 d01 h01 (constantI s0 32 0#32)))
        (cmpi .sle (wrapped a h0 hE) (broadcastInDim sE1 d11 h11 (broadcastInDim s11 d1 h1 (constantI s1 32 99999#32)))))
      (constantI s0 1 1#1) hr hu = fun _ => 1#1 := by
  have hx : (andi (cmpi .sge (wrapped a h0 hE) (broadcastInDim sE1 d01 h01 (constantI s0 32 0#32)))
        (cmpi .sle (wrapped a h0 hE) (broadcastInDim sE1 d11 h11 (broadcastInDim s11 d1 h1 (constantI s1 32 99999#32)))))
      = fun _ => (1#1 : BitVec 1) := by
    funext j
    simp only [andi, cmpi, wrapped, broadcastInDim, select, addi, constantI]
    exact IntOp.andi_eq_one.2 (wrap_in_range _ (ha _))
  rw [hx]
  exact reduce_andi_ones _ hr hu rfl

/-- Under a mask of ones, broadcast along any axes, a select returns its first branch. -/
theorem select_ones {α : Type} {s t : Shape} {d : Fin s.rank → Fin t.rank} (h : s.BroadcastsInDim t d)
    (x y : t.Idx → α) : select (broadcastInDim t d h (fun _ : s.Idx => (1#1 : BitVec 1))) x y = x := by
  funext j
  simp only [select, broadcastInDim, Scalar.select]
  rfl

/-- The range of every source index, read off a conjunction whose last conjunct is the conjunction over all indices of
    s ≥ -100000 and s < 100000. -/
theorem range_of_pre [Subsingleton s0.Idx] (a : IVec sE 32) {d0 : Fin s0.rank → Fin sE.rank} (h0 : s0.BroadcastsInDim sE d0)
    {axes : List (Fin sE.rank)} (hr : sE.ReducesTo axes s0) (hu : 0 < s0.numel) (p : IVec s0 1) (j : s0.Idx)
    (e : andi p (Host.reduce IntOp.andi
        (andi (cmpi .sge a (broadcastInDim sE d0 h0 (constantI s0 32 4294867296#32)))
          (cmpi .slt a (broadcastInDim sE d0 h0 (constantI s0 32 100000#32))))
        (constantI s0 1 1#1) hr hu) j = 1#1) (i : sE.Idx) :
    (-100000 : Int) ≤ (a i).toInt ∧ (a i).toInt < 100000 := by
  have e2 := (IntOp.andi_eq_one.1 e).2
  have e3 := Host.reduce_andi_all _ _ hr hu j e2 i
  simp only [andi, cmpi, broadcastInDim, constantI] at e3
  obtain ⟨g1, g2⟩ := IntOp.andi_eq_one.1 e3
  rw [IntOp.cmpi_sge, toInt_neg] at g1
  rw [IntOp.cmpi_slt, toInt_pos] at g2
  exact ⟨g1, g2⟩

end Cert.IndexRange

end
-- ==== Proof.HostChain.lean ====
/-
  The host operations between the two regions, read back.

  Between the regions the program gathers the support's rows at the source indices, scales row e by edge weight e, and
  sums the scaled rows into the rows of a zero array that the destination indices name; it also reshapes the bias vector
  to one row. The gather is guarded: a negative source index is first wrapped by adding 100000, the wrapped index is
  tested against 0 and 99999, and a row whose index fails the test is replaced by a fill value. Each lemma reads one
  buffer after a stretch of these operations as a function of the buffers before it, for any contents before it. When
  every source index lies in [-100000, 100000) the row mask is all ones, so the guarded gather is the plain gather of
  the wrapped indices. A buffer's contents carried to the buffer's own type and back are the same contents, which is
  all the reading has to remove.
-/
import proofs.«411881_j21320217657349_1_alg».proof.Proof.Gen.KernelIdeal.Frame
import proofs.«411881_j21320217657349_1_alg».proof.Proof.IndexRange
import Idealize.ShloMosaic.Lib.StableHlo.Run
import Idealize.ShloMosaic.PureOps.Ideal

set_option maxRecDepth 16384

noncomputable section

namespace Cert.KernelIdeal.HostChain

open Cert.KernelIdeal Cert.KernelIdeal.Gen
open Idealize.ShloMosaic Idealize.ShloMosaic.TcCoe Idealize.SL.Sem Idealize.ShloMosaic.StableHlo

variable (W : Valuation τ sig (Elt Ideal))

theorem tail_bias : StableHlo.after hostOps1_1 W (Proc.devRef .tc main_v8)
    = shapeCast S1x128 (W (Proc.devRef .tc main_arg5)) shapeCasts_S128_S1x128 := by
  after_results
  rfl

/-- The wrapped source indices, as a column, from the index array's contents. -/
abbrev srcCol (src : IVec S1600000 32) : IVec S1600000x1 32 :=
  Cert.IndexRange.wrapped src bcast_S_S1600000 bcast_S1600000_S1600000x1_0

/-- The messages scaled by the edge weights and summed into the rows their destination indices name. -/
abbrev aggOf (rows : FVec Ideal S1600000x128 .f32) (dst : IVec S1600000 32) (w : FVec Ideal S1600000 .f32) :
    FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (mulf rows
      (broadcastInDim S1600000x128 ![0, 1] bcast_S1600000x1_S1600000x128_0_1
        (broadcastInDim S1600000x1 ![0] bcast_S1600000_S1600000x1_0 w)))

theorem tail_agg : StableHlo.after hostOps1_1 W (Proc.devRef .tc main_v7)
    = aggOf (W (Proc.devRef .tc main_v1)) (W (Proc.devRef .tc main_arg2)) (W (Proc.devRef .tc main_arg3)) := by
  after_results

/-- Contents carried to a buffer's own type and back are the contents. -/
theorem ofBuf_toBuf {T : BufTy} (x : TRef sig T) (v : T.Contents (Elt Ideal)) : x.ofBuf (x.toBuf v) = v := by
  obtain ⟨r, h, h2, h3⟩ := x
  subst h
  rfl

theorem ofBuf_src (p1 p2 p3) (v : (main_arg1 : Ref sig .tc).ty.Contents (Elt Ideal)) :
    (TRef.of (T := ⟨S1600000, .i32⟩) main_arg1 p1 p2 p3).ofBuf v = v := rfl

theorem ofBuf_support (p1 p2 p3) (v : (main_v0 : Ref sig .tc).ty.Contents (Elt Ideal)) :
    (TRef.of (T := ⟨S100000x128, .f32⟩) main_v0 p1 p2 p3).ofBuf v = v := rfl

theorem toBuf_rows (p1 p2 p3) (v : (⟨S1600000x128, .f32⟩ : BufTy).Contents (Elt Ideal)) :
    (TRef.of (T := ⟨S1600000x128, .f32⟩) main_v1 p1 p2 p3).toBuf v = v := rfl

/-- The guarded gather's row mask: both bounds tests of the wrapped index, joined along the column. -/
def maskOf (src : IVec S1600000 32) : IVec S1600000 1 :=
  Host.reduce IntOp.andi
    (andi
      (cmpi .sge (srcCol src) (broadcastInDim S1600000x1 ![] bcast_S_S1600000x1 (constantI S_ 32 0#32)))
      (cmpi .sle (srcCol src)
        (broadcastInDim S1600000x1 ![0, 1] bcast_S1x1_S1600000x1_0_1
          (broadcastInDim S1x1 ![1] bcast_S1_S1x1_1 (constantI S1 32 99999#32)))))
    (constantI S_ 1 1#1) reducesTo_S1600000x1_S1600000_d1 h_S_

/-- The mask is all ones when every source index is in [-100000, 100000). -/
theorem maskOf_ones (src : IVec S1600000 32)
    (hsrc : ∀ e, (-100000 : Int) ≤ (src e).toInt ∧ (src e).toInt < 100000) : maskOf src = fun _ => 1#1 := by
  unfold maskOf
  exact Cert.IndexRange.mask_ones src hsrc bcast_S_S1600000 bcast_S1600000_S1600000x1_0 bcast_S_S1600000x1
    bcast_S1_S1x1_1 bcast_S1x1_S1600000x1_0_1 reducesTo_S1600000x1_S1600000_d1 h_S_

set_option maxHeartbeats 2000000 in
theorem take_rows : StableHlo.after hostOps1 W (Proc.devRef .tc main_v1)
    = select
        (broadcastInDim S1600000x128 ![0] bcast_S1600000_S1600000x128_0
          (maskOf (W (Proc.devRef .tc main_arg1))))
        (Host.gather gather_S100000x128_S1600000x1_S1600000x128_1_0_n_n_0_1_1128 (W (Proc.devRef .tc main_v0))
          (srcCol (W (Proc.devRef .tc main_arg1))))
        (broadcastInDim S1600000x128 ![] bcast_S_S1600000x128 (constant (F := Ideal) S_ .f32 0x7FC00000#32)) := by
  unfold maskOf
  after_results_simp
  simp only [ofBuf_toBuf, ofBuf_src, ofBuf_support, toBuf_rows]

/-- With every source index in [-100000, 100000) the guarded gather is the plain gather of the wrapped indices: its
    row mask is all ones, so no row is replaced by the fill value. -/
theorem kept_rows
    (hsrc : ∀ e, (-100000 : Int) ≤ ((W (Proc.devRef .tc main_arg1) : IVec S1600000 32) e).toInt
      ∧ ((W (Proc.devRef .tc main_arg1) : IVec S1600000 32) e).toInt < 100000) :
    StableHlo.after hostOps1 W (Proc.devRef .tc main_v1)
      = Host.gather gather_S100000x128_S1600000x1_S1600000x128_1_0_n_n_0_1_1128 (W (Proc.devRef .tc main_v0))
          (srcCol (W (Proc.devRef .tc main_arg1))) := by
  rw [take_rows, maskOf_ones _ hsrc]
  exact Cert.IndexRange.select_ones _ _ _

set_option maxHeartbeats 2000000 in
/-- The gather's stretch writes none of the destination indices, the edge weights or the bias. -/
theorem take_keeps_dst : StableHlo.after hostOps1 W (Proc.devRef .tc main_arg2) = W (Proc.devRef .tc main_arg2) := by
  after_results_simp

set_option maxHeartbeats 2000000 in
theorem take_keeps_weight : StableHlo.after hostOps1 W (Proc.devRef .tc main_arg3) = W (Proc.devRef .tc main_arg3) := by
  after_results_simp

set_option maxHeartbeats 2000000 in
theorem take_keeps_bias : StableHlo.after hostOps1 W (Proc.devRef .tc main_arg5) = W (Proc.devRef .tc main_arg5) := by
  after_results_simp

end Cert.KernelIdeal.HostChain

end
-- ==== Proof.KernelValue.lean ====
/-
  The kernel program's result, as one whole-array function of its arguments.

  Read backwards from the result buffer: the second region leaves the aggregate plus the bias row, capped below by zero
  (the bias row is the bias vector reshaped to one row); the aggregate is the scatter-add, from zeros, of the gathered
  support rows scaled by the edge weights; with every source index in [-100000, 100000) the guarded gather keeps every
  gathered row; and the first region leaves the support at the features' rows against the weights' columns. No host
  operation and no region writes an argument array, so each is read back as launched.
-/
import proofs.«411881_j21320217657349_1_alg».proof.Proof.Gen.KernelIdeal.Frame
import proofs.«411881_j21320217657349_1_alg».proof.Proof.ProjectValue
import proofs.«411881_j21320217657349_1_alg».proof.Proof.ReluValue
import proofs.«411881_j21320217657349_1_alg».proof.Proof.HostChain

set_option maxRecDepth 16384

noncomputable section

namespace Cert.KernelIdeal.KernelValue

open Cert.KernelIdeal Cert.KernelIdeal.Gen
open Idealize.ShloMosaic Idealize.ShloMosaic.TcCoe Idealize.SL.Sem Idealize.ShloMosaic.StableHlo

/-- The result as a function of the six argument arrays. -/
abbrev spec (x : FVec Ideal S100000x256 .f32) (src dst : IVec S1600000 32) (w : FVec Ideal S1600000 .f32)
    (Wt : FVec Ideal S256x128 .f32) (b : FVec Ideal S128 .f32) : FVec Ideal S100000x128 .f32 :=
  Cert.Lib.reluArr
    (HostChain.aggOf
      (Host.gather gather_S100000x128_S1600000x1_S1600000x128_1_0_n_n_0_1_1128 (Cert.Lib.projArr x Wt)
        (HostChain.srcCol src))
      dst w)
    (shapeCast S1x128 b shapeCasts_S128_S1x128) ReluValue.zero

variable (m : (ℓ : Loc nD τ sig) → Buf (Elt Ideal) ℓ) (ρ : Dev nD → PrngReg)

/-- Region 0 leaves the argument arrays it does not write as launched. -/
theorem src_at (c : Dev nD) : W1 m ρ c (Proc.devRef .tc main_arg1) = m ((c.tc : Thread nD τ).loc main_arg1) :=
  (W1_of_ne m ρ c main_arg1 (by decide)).trans rfl
theorem dst_at (c : Dev nD) : W1 m ρ c (Proc.devRef .tc main_arg2) = m ((c.tc : Thread nD τ).loc main_arg2) :=
  (W1_of_ne m ρ c main_arg2 (by decide)).trans rfl
theorem weight_at (c : Dev nD) : W1 m ρ c (Proc.devRef .tc main_arg3) = m ((c.tc : Thread nD τ).loc main_arg3) :=
  (W1_of_ne m ρ c main_arg3 (by decide)).trans rfl
theorem bias_at (c : Dev nD) : W1 m ρ c (Proc.devRef .tc main_arg5) = m ((c.tc : Thread nD τ).loc main_arg5) :=
  (W1_of_ne m ρ c main_arg5 (by decide)).trans rfl

/-- Region 0 leaves the support at the features' rows against the weights' columns. -/
theorem support_at (c : Dev nD) : W1 m ρ c (Proc.devRef .tc main_v0)
    = Cert.Lib.projArr (m ((c.tc : Thread nD τ).loc main_arg0)) (m ((c.tc : Thread nD τ).loc main_arg4)) :=
  (W1_arr m ρ c 2).trans ((ProjectValue.support_eq (V0 m ρ) c).trans rfl)

/-- The bias row at the second region's entry is the bias vector as one row. -/
theorem biasRow_at (c : Dev nD) : V3 m ρ c main_v8
    = shapeCast S1x128 (m ((c.tc : Thread nD τ).loc main_arg5)) shapeCasts_S128_S1x128 :=
  (HostChain.tail_bias (W2 m ρ c)).trans
    (congrArg (fun v => shapeCast S1x128 v shapeCasts_S128_S1x128)
      ((HostChain.take_keeps_bias (W1 m ρ c)).trans (bias_at m ρ c)))

/-- The aggregate at the second region's entry, when every source index is in range. -/
theorem agg_at (c : Dev nD)
    (hsrc : ∀ e, (-100000 : Int) ≤ ((m ((c.tc : Thread nD τ).loc main_arg1) : IVec S1600000 32) e).toInt
      ∧ ((m ((c.tc : Thread nD τ).loc main_arg1) : IVec S1600000 32) e).toInt < 100000) :
    V3 m ρ c main_v7
      = HostChain.aggOf
          (Host.gather gather_S100000x128_S1600000x1_S1600000x128_1_0_n_n_0_1_1128
            (Cert.Lib.projArr (m ((c.tc : Thread nD τ).loc main_arg0)) (m ((c.tc : Thread nD τ).loc main_arg4)))
            (HostChain.srcCol (m ((c.tc : Thread nD τ).loc main_arg1))))
          (m ((c.tc : Thread nD τ).loc main_arg2)) (m ((c.tc : Thread nD τ).loc main_arg3)) := by
  refine (HostChain.tail_agg (W2 m ρ c)).trans ?_
  have e1 : W2 m ρ c (Proc.devRef .tc main_v1)
      = Host.gather gather_S100000x128_S1600000x1_S1600000x128_1_0_n_n_0_1_1128 (W1 m ρ c (Proc.devRef .tc main_v0))
          (HostChain.srcCol (W1 m ρ c (Proc.devRef .tc main_arg1))) :=
    HostChain.kept_rows (W1 m ρ c) (fun e => by rw [src_at m ρ c]; exact hsrc e)
  have e2 : W2 m ρ c (Proc.devRef .tc main_arg2) = m ((c.tc : Thread nD τ).loc main_arg2) :=
    (HostChain.take_keeps_dst (W1 m ρ c)).trans (dst_at m ρ c)
  have e3 : W2 m ρ c (Proc.devRef .tc main_arg3) = m ((c.tc : Thread nD τ).loc main_arg3) :=
    (HostChain.take_keeps_weight (W1 m ρ c)).trans (weight_at m ρ c)
  rw [e1, e2, e3, support_at m ρ c, src_at m ρ c]

/-- The result buffer after the run, when every source index is in range. -/
theorem result_at (c : Dev nD)
    (hsrc : ∀ e, (-100000 : Int) ≤ ((m ((c.tc : Thread nD τ).loc main_arg1) : IVec S1600000 32) e).toInt
      ∧ ((m ((c.tc : Thread nD τ).loc main_arg1) : IVec S1600000 32) e).toInt < 100000) :
    W4 m ρ c (Proc.devRef .tc main_v9)
      = spec (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  refine (W4_arr m ρ c 2).trans ((ReluValue.result_eq (V3 m ρ) c).trans ?_)
  show Cert.Lib.reluArr (V3 m ρ c main_v7) (V3 m ρ c main_v8) ReluValue.zero = _
  rw [agg_at m ρ c hsrc, biasRow_at m ρ c]

end Cert.KernelIdeal.KernelValue

end
-- ==== Proof.RefValue.lean ====
/-
  The reference's result, as one whole-array function.

  The reference multiplies the node features into the weights (row i of the support is row i of the features against
  the weights' columns), gathers the support's rows at the wrapped source indices, scales row e by the edge weight e,
  sums the scaled rows into the rows their destination indices name, adds the bias to every row and takes the larger of
  the sum and zero. Read at an entry, its closing three operations are the larger of zero and the aggregate's entry plus
  the bias row's entry, where the bias row is the bias vector seen as an array of one row.
-/
import proofs.«411881_j21320217657349_1_alg».proof.Proof.Gen.ReferenceIdeal.Run
import proofs.«411881_j21320217657349_1_alg».proof.Proof.LibRowOps

noncomputable section

namespace Cert.ReferenceIdeal.RefValue

open Cert.ReferenceIdeal Cert.ReferenceIdeal.Gen
open Idealize.ShloMosaic Idealize.ShloMosaic.TcCoe Idealize.SL.Sem

/-- The scaled, gathered rows summed into the rows their destination indices name. -/
abbrev aggOf (support : FVec Ideal S100000x128 .f32) (src dst : IVec S1600000 32) (w : FVec Ideal S1600000 .f32) :
    FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (mulf
      (Host.gather gather_S100000x128_S1600000x1_S1600000x128_1_0_n_n_0_1_1128 support
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      (broadcastInDim S1600000x128 ![0, 1] bcast_S1600000x1_S1600000x128_0_1
        (broadcastInDim S1600000x1 ![0] bcast_S1600000_S1600000x1_0 w)))

/-- The reference run's result term is the aggregate of the projected features plus the bias row, capped below by
    zero. -/
theorem result_eq (x : FVec Ideal S100000x256 .f32) (src dst : IVec S1600000 32) (w : FVec Ideal S1600000 .f32)
    (Wt : FVec Ideal S256x128 .f32) (b : FVec Ideal S128 .f32) :
    maximumf
        (addf (aggOf (Host.dotGeneral dot_S100000x256_S256x128_S100000x128_1_0_0_1_n_n none x Wt) src dst w)
          (broadcastInDim S100000x128 ![0, 1] bcast_S1x128_S100000x128_0_1
            (broadcastInDim S1x128 ![1] bcast_S128_S1x128_1 b)))
        (broadcastInDim S100000x128 ![] bcast_S_S100000x128 (constant (F := Ideal) S_ .f32 0x00000000#32))
      = Cert.Lib.reluArr (aggOf (Cert.Lib.projArr x Wt) src dst w) (shapeCast S1x128 b (by decide))
          (Ideal.ofBits .f32 0x00000000#32) := by
  rw [show Host.dotGeneral dot_S100000x256_S256x128_S100000x128_1_0_0_1_n_n none x Wt = Cert.Lib.projArr x Wt from
    Cert.Lib.host_dot_eq (M := 100000) (K := 256) (N := 128) none x Wt]
  exact Cert.Lib.host_biasRelu_eq (M := 100000) (K := 128) _ b _ _ _ _ _

end Cert.ReferenceIdeal.RefValue

end
-- ==== Proof.Bridge.lean ====
/-
  The two programs compute one function.

  Both results are the larger of zero and the aggregate plus the bias row; both aggregates are the scatter-add, from
  zeros and by the same destination indices, of the rows gathered at the same wrapped source indices from the same
  support (the features' rows against the weights' columns), scaled by the same edge weights. The two programs print the
  gather's and the scatter's dimension numbers each in its own name, with the same fields, and the bias row once as a
  reshape and once as a broadcast of the bias vector to one row, which read the same entries. The precondition's last
  conjunct puts every source index in [-100000, 100000), which is what the kernel's guarded gather needs to keep every
  gathered row.
-/
import proofs.«411881_j21320217657349_1_alg».proof.Proof.KernelValue
import proofs.«411881_j21320217657349_1_alg».proof.Proof.RefValue
import proofs.«411881_j21320217657349_1_alg».proof.Proof.IndexRange
import proofs.«411881_j21320217657349_1_alg».proof.Proof.Gen.Pre_finite_inputs
import proofs.«411881_j21320217657349_1_alg».proof.Defs
import Idealize.ShloMosaic.Lib.ValueIdx

noncomputable section

namespace Cert.Bridge

open Idealize.ShloMosaic Idealize.ShloMosaic.TcCoe Idealize.SL.Sem Idealize.ShloMosaic.ValueIdx

instance : Subsingleton Cert.Pre_finite_inputs.S_.Idx := ⟨fun a b => funext fun d => d.elim0⟩

/-- Every source index lies in [-100000, 100000) when the precondition holds of the argument arrays. -/
theorem src_range [hP : Cert.Pre_finite_inputs.Facts]
    (a0 : FVec Ideal Cert.Pre_finite_inputs.S100000x256 .f32) (a1 a2 : IVec Cert.Pre_finite_inputs.S1600000 32)
    (a3 : FVec Ideal Cert.Pre_finite_inputs.S1600000 .f32) (a4 : FVec Ideal Cert.Pre_finite_inputs.S256x128 .f32)
    (a5 : FVec Ideal Cert.Pre_finite_inputs.S128 .f32)
    (h : Cert.Pre_finite_inputs.fn (F := Ideal) a0 a1 a2 a3 a4 a5 = fun _ => 1#1) (e : Cert.Pre_finite_inputs.S1600000.Idx) :
    (-100000 : Int) ≤ (a1 e).toInt ∧ (a1 e).toInt < 100000 := by
  have h0 := congrFun h ix0
  unfold Cert.Pre_finite_inputs.fn Cert.Pre_finite_inputs.fn_part1 at h0
  exact Cert.IndexRange.range_of_pre a1 Cert.Pre_finite_inputs.Facts.bcast_S_S1600000
    Cert.Pre_finite_inputs.Facts.reducesTo_S1600000_S_d0 Cert.Pre_finite_inputs.Facts.h_S_ _ ix0 h0 e

/-- The reference's whole-array form is the kernel's specification. -/
theorem spec_eq
    (x : FVec Ideal Cert.KernelIdeal.S100000x256 .f32) (src dst : IVec Cert.KernelIdeal.S1600000 32)
    (w : FVec Ideal Cert.KernelIdeal.S1600000 .f32) (Wt : FVec Ideal Cert.KernelIdeal.S256x128 .f32)
    (b : FVec Ideal Cert.KernelIdeal.S128 .f32) :
    Cert.Lib.reluArr (Cert.ReferenceIdeal.RefValue.aggOf (Cert.Lib.projArr x Wt) src dst w)
        (shapeCast Cert.ReferenceIdeal.S1x128 b (by decide)) (Ideal.ofBits .f32 0x00000000#32)
      = Cert.KernelIdeal.KernelValue.spec x src dst w Wt b := rfl

end Cert.Bridge

end
-- ==== Proof.lean ====
/-
  Message passing over a graph: out = max (A (x W) + b, 0), where row i of the support x W is row i of the node features
  against the columns of the weights, and A sums, into row d of the aggregate, the support's row s scaled by the edge
  weight, over the edges (s, d). The kernel program computes x W in a first region, twenty blocks of 5000 rows at a time
  (operands narrowed to sixteen bits, which at the ideal values changes nothing), gathers, scales and scatter-adds on the
  host, and adds the bias and takes the positive part in a second region, again twenty blocks of 5000 rows; the
  reference does all of it on the host.

  The two differ in one place. Both wrap a negative source index by adding 100000. The reference then reads the
  support at the wrapped index clamped into the table; the kernel program reads the same row but replaces it by a fill
  value when the wrapped index is outside 0 .. 99999. Under the precondition's last conjunct, every source index in
  [-100000, 100000), the wrapped index is inside the table, the clamp does nothing and the fill is never used, so the
  gathered rows agree. Everything after the gather is the same operations on the same values: the same scaling, the
  same scatter-add by the same destination indices, the same bias and positive part. No law of arithmetic beyond the
  reordering of a finite sum is used, so the finiteness of the float inputs is never opened.

  The frames of the two kernel programs are the generated ones; the reference's frame is its generated run with the
  result dropped. The idealization rewrote nothing, so it is preserved trivially.
-/
import proofs.«411881_j21320217657349_1_alg».proof.Defs
import proofs.«411881_j21320217657349_1_alg».proof.Proof.Gen.Kernel
import proofs.«411881_j21320217657349_1_alg».proof.Proof.Gen.Kernel.Skeleton
import proofs.«411881_j21320217657349_1_alg».proof.Proof.Gen.Kernel.Launch
import proofs.«411881_j21320217657349_1_alg».proof.Proof.Gen.Kernel.Points
import proofs.«411881_j21320217657349_1_alg».proof.Proof.Gen.Kernel.Frame
import proofs.«411881_j21320217657349_1_alg».proof.Proof.Gen.KernelIdeal
import proofs.«411881_j21320217657349_1_alg».proof.Proof.Gen.KernelIdeal.Skeleton
import proofs.«411881_j21320217657349_1_alg».proof.Proof.Gen.KernelIdeal.Launch
import proofs.«411881_j21320217657349_1_alg».proof.Proof.Gen.KernelIdeal.Points
import proofs.«411881_j21320217657349_1_alg».proof.Proof.Gen.KernelIdeal.Frame
import proofs.«411881_j21320217657349_1_alg».proof.Proof.Gen.ReferenceIdeal
import proofs.«411881_j21320217657349_1_alg».proof.Proof.Gen.ReferenceIdeal.Run
import proofs.«411881_j21320217657349_1_alg».proof.Proof.Gen.Pre_finite_inputs
import proofs.«411881_j21320217657349_1_alg».proof.Proof.KernelRun
import proofs.«411881_j21320217657349_1_alg».proof.Proof.KernelValue
import proofs.«411881_j21320217657349_1_alg».proof.Proof.RefValue
import proofs.«411881_j21320217657349_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result at the specification function of the kernel program's argument arrays: the
    kernel program by its run and the value of its last boundary, the reference by its run, its whole-array form and
    the agreement of the two memories on the arguments. -/
theorem algebraic : Cert.algebraic_KernelIdeal_ReferenceIdeal := by
  intro m ρ m' ρ' hpre hagree
  refine ⟨fun c => Cert.KernelIdeal.KernelValue.spec
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun r h c => ⟨(h c).1.trans ?_, (h c).2⟩)
      (Cert.KernelIdeal.ValueRun.run_main (F := Ideal) m ρ)
    exact Cert.KernelIdeal.KernelValue.result_at m ρ c (Cert.Bridge.src_range _ _ _ _ _ _ (hpre c))
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5⟩ := hagree c
    rw [a0, a1, a2, a3, a4, a5]
    exact (Cert.ReferenceIdeal.RefValue.result_eq _ _ _ _ _ _).trans (Cert.Bridge.spec_eq _ _ _ _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
